-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 73
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The function both programs compute: three GraphSAGE layers over a graph of 100000 nodes and 1600000 edges.
  A layer maps node features `h` to `h · W_self + mean_agg(h) · W_neigh + b` (followed by `max(·, 0)` in the two
  hidden layers), where `mean_agg(h)` at node `v` is the sum of `h[src e]` over the edges `e` with `dst e = v`,
  times `1 / max(deg v, 1)`. The dense part of a layer is written index by index as sums over the 128 input
  features; the aggregation is the host's gather / scatter-add chain, kept as one function of `(h, src, dst)` that
  is never opened: both programs apply it to equal arguments.
-/
import proofs.«127973_j12043088298174_1_alg».proof.ReferenceIdeal
import proofs.«127973_j12043088298174_1_alg».proof.Proof.Gen.ReferenceIdeal
import Idealize.ShloMosaic.Lib.ValueIdx
import Idealize.ShloMosaic.PureOps.Ideal.Laws

noncomputable section

namespace Cert.Sage

open Idealize.ShloMosaic Cert.ReferenceIdeal Cert.ReferenceIdeal.Gen

variable {F : FTy → Type} [FloatOps F]

/-- The edge sources as gather indices: a negative index wraps around by the number of nodes (an index
    `-j` names node `100000 - j`), then becomes a column of index vectors of length one. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- `1 / max(deg, 1)` as a column: `deg v` counts the edges arriving at `v` (a scatter-add of ones). -/
def invDeg (dst : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- The mean aggregation of the neighbours' features, given the column `inv` of reciprocal degrees: gather the
    source rows, scatter-add them at the destinations, scale each row. -/
def aggWith (inv : (⟨S100000x1, .f32⟩ : BufTy).Contents (Elt F)) (h : (⟨S100000x128, .f32⟩ : BufTy).Contents (Elt F))
    (src dst : (⟨S1600000, .i32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h (srcIdx src)))
    (broadcastInDim S100000x128 ![0, 1] bcast_S100000x1_S100000x128_0_1 inv)

/-- The mean aggregation `mean_agg(h)`. -/
def agg (h : (⟨S100000x128, .f32⟩ : BufTy).Contents (Elt F)) (src dst : (⟨S1600000, .i32⟩ : BufTy).Contents (Elt F)) :
    (⟨S100000x128, .f32⟩ : BufTy).Contents (Elt F) :=
  aggWith (invDeg dst) h src dst

/-- Row `i 0` of a node-feature array, at feature `k`. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Column `i 1` of a 128 × 128 weight matrix, at input feature `k`. -/
abbrev colAt (i : S100000x128.Idx) (k : Fin 128) : S128x128.Idx := fun a => match a with
  | ⟨0, _⟩ => ⟨k.val, k.isLt⟩
  | ⟨1, _⟩ => ⟨(i 1).val, (i 1).isLt⟩
/-- The bias entry of output feature `i 1`. -/
abbrev biasAt (i : S100000x128.Idx) : S128.Idx := fun a => match a with
  | ⟨0, _⟩ => ⟨(i 1).val, (i 1).isLt⟩
/-- The same three for the last layer, whose output has 64 features. -/
abbrev rowAt' (i : S100000x64.Idx) (k : Fin 128) : S100000x128.Idx := fun a => match a with
  | ⟨0, _⟩ => ⟨(i 0).val, (i 0).isLt⟩
  | ⟨1, _⟩ => ⟨k.val, k.isLt⟩
abbrev colAt' (i : S100000x64.Idx) (k : Fin 128) : S128x64.Idx := fun a => match a with
  | ⟨0, _⟩ => ⟨k.val, k.isLt⟩
  | ⟨1, _⟩ => ⟨(i 1).val, (i 1).isLt⟩
abbrev biasAt' (i : S100000x64.Idx) : S64.Idx := fun a => match a with
  | ⟨0, _⟩ => ⟨(i 1).val, (i 1).isLt⟩

/-- A hidden layer, entry by entry: `max(Σ_k h[v,k]·Ws[k,f] + Σ_k a[v,k]·Wn[k,f] + b[f], 0)` over the extended reals. -/
def hidden (h a : FVec Ideal S100000x128 .f32) (ws wn : FVec Ideal S128x128 .f32) (b : FVec Ideal S128 .f32) :
    FVec Ideal S100000x128 .f32 := fun i =>
  max ((∑ k : Fin 128, h (rowAt i k) * ws (colAt i k)) + (∑ k : Fin 128, a (rowAt i k) * wn (colAt i k)) + b (biasAt i))
    (Ideal.ofBits .f32 0x00000000#32)

/-- The last layer, entry by entry: `Σ_k h[v,k]·Ws[k,f] + Σ_k a[v,k]·Wn[k,f] + b[f]`, 64 output features, no clamp. -/
def last (h a : FVec Ideal S100000x128 .f32) (ws wn : FVec Ideal S128x64 .f32) (b : FVec Ideal S64 .f32) :
    FVec Ideal S100000x64 .f32 := fun i =>
  (∑ k : Fin 128, h (rowAt' i k) * ws (colAt' i k)) + (∑ k : Fin 128, a (rowAt' i k) * wn (colAt' i k)) + b (biasAt' i)

/-- The whole network: each layer reads the previous layer's output and its mean aggregation. -/
def net (x : FVec Ideal S100000x128 .f32) (src dst : IVec S1600000 32)
    (ws0 wn0 : FVec Ideal S128x128 .f32) (b0 : FVec Ideal S128 .f32)
    (ws1 wn1 : FVec Ideal S128x128 .f32) (b1 : FVec Ideal S128 .f32)
    (ws2 wn2 : FVec Ideal S128x64 .f32) (b2 : FVec Ideal S64 .f32) : FVec Ideal S100000x64 .f32 :=
  last (hidden (hidden x (agg (F := Ideal) x src dst) ws0 wn0 b0)
          (agg (F := Ideal) (hidden x (agg (F := Ideal) x src dst) ws0 wn0 b0) src dst) ws1 wn1 b1)
    (agg (F := Ideal) (hidden (hidden x (agg (F := Ideal) x src dst) ws0 wn0 b0)
          (agg (F := Ideal) (hidden x (agg (F := Ideal) x src dst) ws0 wn0 b0) src dst) ws1 wn1 b1) src dst)
    ws2 wn2 b2

end Cert.Sage

end
-- ==== Proof.Layer0.lean ====
/-
  Region 0 of the kernel's program (the first layer's dense part, tiled over the node axis in 20 blocks of 5000
  rows): what the region leaves in its output array, as ONE function of the arrays the region finds. Point `t` of
  the grid reads rows `5000 t … 5000 t + 4999` of the features and of their aggregation, the two whole weight
  matrices and the whole bias, and writes the same rows of the output: entry `(p, q)` of the tile is
  `max(Σ_k x[p,k]·Ws[k,q] + Σ_k a[p,k]·Wn[k,q] + b[q], 0)`. The 20 tiles cover the output array.
-/
import proofs.«127973_j12043088298174_1_alg».proof.Proof.Spec
import proofs.«127973_j12043088298174_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## A tile's product with a weight matrix, entry by entry -/

/-- The tile-times-matrix product's dimensions: rows × 128 input features times 128 × 128. -/
abbrev tileDot : DotDims S5000x128 S128x128 S5000x128 := dot_S5000x128_S128x128_S5000x128_1_0_0_1_n_n

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_feat (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_feat (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A zero-initialised product of a 5000 × 128 tile with a 128 × 128 matrix, at entry `(p, q)`: the sum over the
    128 input features of the tile's row `p` against the matrix's column `q`. -/
theorem tile_dot_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_feat _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_feat _ _).trans hk
    | ⟨1, _⟩ => exact rhs_col _ _)
  rw [el, er]

/-! ## The body's stored value, entry by entry -/

/-- The value the body stores, at entry `(p, q)` of the tile: both products, the bias of feature `q`, the clamp at
    zero. (A change of float format and a cast to the same shape are the identity over the extended reals.) -/
theorem stored_apply (x0 x1 : Vec Ideal S5000x128 .f32) (w0 w1 : Vec Ideal S128x128 .f32) (b : Vec Ideal S128 .f32)
    (p : Fin 5000) (q : Fin 128) :
    k0_pay1 (F := Ideal) x0 x1 w0 w1 b (ix2 p q)
      = max ((∑ k : Fin 128, x0 (ix2 p k) * w0 (ix2 k q)) + (∑ k : Fin 128, x1 (ix2 p k) * w1 (ix2 k q)) + b (ix1 q))
          (Ideal.ofBits .f32 0x00000000#32) := by
  unfold k0_pay1
  simp only [shapeCast_self]
  show max ((matmul (F := Ideal) dot_S5000x128_S128x128_S5000x128_1_0_0_1_n_n none (truncf .bf16 x0 bitsLt_bf16_f32) (truncf .bf16 w0 bitsLt_bf16_f32) (constant S5000x128 .f32 0x00000000#32) (ix2 p q)
      + matmul (F := Ideal) dot_S5000x128_S128x128_S5000x128_1_0_0_1_n_n none (truncf .bf16 x1 bitsLt_bf16_f32) (truncf .bf16 w1 bitsLt_bf16_f32) (constant S5000x128 .f32 0x00000000#32) (ix2 p q))
      + broadcastTo S5000x128 (shapeCast S1x128 b shapeCasts_S128_S1x128) broadcasts_S1x128_S5000x128 (ix2 p q)) _ = _
  rw [tile_dot_apply, tile_dot_apply, broadcastTo_1b_ab_apply, shapeCast_a_1a_apply]
  rfl

/-! ## A tile's entry is the layer's entry at the tile's place in the arrays -/

/-- If the tile blocks `x0`, `x1`, `w0`, `w1`, `bb` hold, where the body reads them, what the arrays `h`, `a`, `ws`,
    `wn`, `b` hold in row `i 0` and column `i 1`, the stored entry `(p, q)` is the hidden layer's entry `i`. -/
theorem tile_entry (h a : FVec Ideal S100000x128 .f32) (ws wn : FVec Ideal S128x128 .f32) (b : FVec Ideal S128 .f32)
    (x0 x1 : Vec Ideal S5000x128 .f32) (w0 w1 : Vec Ideal S128x128 .f32) (bb : Vec Ideal S128 .f32)
    (i : S100000x128.Idx) (p : Fin 5000) (q : Fin 128)
    (hx0 : ∀ k : Fin 128, x0 (ix2 p k) = h (Cert.Sage.rowAt i k)) (hx1 : ∀ k : Fin 128, x1 (ix2 p k) = a (Cert.Sage.rowAt i k))
    (hw0 : ∀ k : Fin 128, w0 (ix2 k q) = ws (Cert.Sage.colAt i k)) (hw1 : ∀ k : Fin 128, w1 (ix2 k q) = wn (Cert.Sage.colAt i k))
    (hb : bb (ix1 q) = b (Cert.Sage.biasAt i)) :
    k0_pay1 (F := Ideal) x0 x1 w0 w1 bb (ix2 p q) = Cert.Sage.hidden h a ws wn b i := by
  rw [stored_apply]
  unfold Cert.Sage.hidden
  simp only [hx0, hx1, hw0, hw1, hb]

/-! ## From the 20 tiles to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: at point `t` the two feature windows and the output window sit at row
    block `t`, column block 0; the weights and the bias at block 0. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is tile `t` of the hidden layer of the arrays the region finds. -/
theorem flushed_eq (c : Dev nD) (t : Fin cfg0.N) :
    (dat0 (F := Ideal) V c).flushed 5 t = ((cfg0.win 5).blk t).view.read (Elt Ideal)
      (Cert.Sage.hidden (V c main_arg0) (V c main_v20) (V c main_arg3) (V c main_arg4) (V c main_arg5)) := by
  show (cfg0.win 5).cut (grid0.coords t) ((dat0 (F := Ideal) V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨e00, e01, e10, e11, e20, e21, e30, e31, e40, e50, e51⟩ := blocks_at t
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = Cert.Sage.hidden (V c main_arg0) (V c main_v20) (V c main_arg3) (V c main_arg4) (V c main_arg5) (((cfg0.win 5).blk t).view.emb (ix2 p q))
  refine tile_entry (V c main_arg0) (V c main_v20) (V c main_arg3) (V c main_arg4) (V c main_arg5)
    (iblk0 V c 0 t) (iblk0 V c 1 t) (iblk0 V c 2 t) (iblk0 V c 3 t) (iblk0 V c 4 t)
    (((cfg0.win 5).blk t).view.emb (ix2 p q)) p q ?_ ?_ ?_ ?_ ?_
  · intro k
    show V c main_arg0 (((cfg0.win 0).blk t).view.emb (ix2 p k)) = V c main_arg0 (Cert.Sage.rowAt (((cfg0.win 5).blk t).view.emb (ix2 p q)) k)
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_v20 (((cfg0.win 1).blk t).view.emb (ix2 p k)) = V c main_v20 (Cert.Sage.rowAt (((cfg0.win 5).blk t).view.emb (ix2 p q)) k)
    refine congrArg (V c main_v20) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg3 (((cfg0.win 2).blk t).view.emb (ix2 k q)) = V c main_arg3 (Cert.Sage.colAt (((cfg0.win 5).blk t).view.emb (ix2 p q)) k)
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    show V c main_arg4 (((cfg0.win 3).blk t).view.emb (ix2 k q)) = V c main_arg4 (Cert.Sage.colAt (((cfg0.win 5).blk t).view.emb (ix2 p q)) k)
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_arg5 (((cfg0.win 4).blk t).view.emb (ix1 q)) = V c main_arg5 (Cert.Sage.biasAt (((cfg0.win 5).blk t).view.emb (ix2 p q)))
    refine congrArg (V c main_arg5) (funext fun a => Fin.ext ?_)
    match a with
    | ⟨0, _⟩ => show win0_4.index t (0 : Fin 1) * 128 + 1 * q.val = win0_5.index t (1 : Fin 2) * 128 + 1 * q.val; omega

/-- An index of the output array is in point `t`'s tile iff each coordinate is in the tile's range on its axis. -/
theorem mem_tile (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Every entry of the output array lies in the tile of the point its row falls in: row `r` in tile `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < 20 := by omega
  obtain ⟨-, -, -, -, -, -, -, -, -, e50, e51⟩ := blocks_at ⟨(i 0).val / 5000, ht⟩
  refine ⟨⟨(i 0).val / 5000, ht⟩, flush0_5 _, ?_⟩
  rw [mem_tile]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- The region's output array after its 20 grid points: the layer's function of the arrays the region was entered
    with (`V`), entry by entry. -/
theorem arr (c : Dev nD) :
    (dat0 (F := Ideal) V c).arrAt 5 cfg0.N
      = Cert.Sage.hidden (V c main_arg0) (V c main_v20) (V c main_arg3) (V c main_arg4) (V c main_arg5) :=
  (dat0 (F := Ideal) V c).arrAt_eq_of_cover 5 _ (fun t _ => flushed_eq V c t) covered

end Cert.KernelIdeal.Layer0

end
-- ==== Proof.Layer1.lean ====
/-
  Region 1 of the kernel's program (the second layer's dense part, tiled over the node axis in 20 blocks of 5000
  rows): what the region leaves in its output array, as ONE function of the arrays the region finds. Point `t` of
  the grid reads rows `5000 t … 5000 t + 4999` of the features and of their aggregation, the two whole weight
  matrices and the whole bias, and writes the same rows of the output: entry `(p, q)` of the tile is
  `max(Σ_k x[p,k]·Ws[k,q] + Σ_k a[p,k]·Wn[k,q] + b[q], 0)`. The 20 tiles cover the output array.
-/
import proofs.«127973_j12043088298174_1_alg».proof.Proof.Spec
import proofs.«127973_j12043088298174_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## A tile's product with a weight matrix, entry by entry -/

/-- The tile-times-matrix product's dimensions: rows × 128 input features times 128 × 128. -/
abbrev tileDot : DotDims S5000x128 S128x128 S5000x128 := dot_S5000x128_S128x128_S5000x128_1_0_0_1_n_n

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_feat (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_feat (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A zero-initialised product of a 5000 × 128 tile with a 128 × 128 matrix, at entry `(p, q)`: the sum over the
    128 input features of the tile's row `p` against the matrix's column `q`. -/
theorem tile_dot_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_feat _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_feat _ _).trans hk
    | ⟨1, _⟩ => exact rhs_col _ _)
  rw [el, er]

/-! ## The body's stored value, entry by entry -/

/-- The value the body stores, at entry `(p, q)` of the tile: both products, the bias of feature `q`, the clamp at
    zero. (A change of float format and a cast to the same shape are the identity over the extended reals.) -/
theorem stored_apply (x0 x1 : Vec Ideal S5000x128 .f32) (w0 w1 : Vec Ideal S128x128 .f32) (b : Vec Ideal S128 .f32)
    (p : Fin 5000) (q : Fin 128) :
    k1_pay1 (F := Ideal) x0 x1 w0 w1 b (ix2 p q)
      = max ((∑ k : Fin 128, x0 (ix2 p k) * w0 (ix2 k q)) + (∑ k : Fin 128, x1 (ix2 p k) * w1 (ix2 k q)) + b (ix1 q))
          (Ideal.ofBits .f32 0x00000000#32) := by
  unfold k1_pay1
  simp only [shapeCast_self]
  show max ((matmul (F := Ideal) dot_S5000x128_S128x128_S5000x128_1_0_0_1_n_n none (truncf .bf16 x0 bitsLt_bf16_f32) (truncf .bf16 w0 bitsLt_bf16_f32) (constant S5000x128 .f32 0x00000000#32) (ix2 p q)
      + matmul (F := Ideal) dot_S5000x128_S128x128_S5000x128_1_0_0_1_n_n none (truncf .bf16 x1 bitsLt_bf16_f32) (truncf .bf16 w1 bitsLt_bf16_f32) (constant S5000x128 .f32 0x00000000#32) (ix2 p q))
      + broadcastTo S5000x128 (shapeCast S1x128 b shapeCasts_S128_S1x128) broadcasts_S1x128_S5000x128 (ix2 p q)) _ = _
  rw [tile_dot_apply, tile_dot_apply, broadcastTo_1b_ab_apply, shapeCast_a_1a_apply]
  rfl

/-! ## A tile's entry is the layer's entry at the tile's place in the arrays -/

/-- If the tile blocks `x0`, `x1`, `w0`, `w1`, `bb` hold, where the body reads them, what the arrays `h`, `a`, `ws`,
    `wn`, `b` hold in row `i 0` and column `i 1`, the stored entry `(p, q)` is the hidden layer's entry `i`. -/
theorem tile_entry (h a : FVec Ideal S100000x128 .f32) (ws wn : FVec Ideal S128x128 .f32) (b : FVec Ideal S128 .f32)
    (x0 x1 : Vec Ideal S5000x128 .f32) (w0 w1 : Vec Ideal S128x128 .f32) (bb : Vec Ideal S128 .f32)
    (i : S100000x128.Idx) (p : Fin 5000) (q : Fin 128)
    (hx0 : ∀ k : Fin 128, x0 (ix2 p k) = h (Cert.Sage.rowAt i k)) (hx1 : ∀ k : Fin 128, x1 (ix2 p k) = a (Cert.Sage.rowAt i k))
    (hw0 : ∀ k : Fin 128, w0 (ix2 k q) = ws (Cert.Sage.colAt i k)) (hw1 : ∀ k : Fin 128, w1 (ix2 k q) = wn (Cert.Sage.colAt i k))
    (hb : bb (ix1 q) = b (Cert.Sage.biasAt i)) :
    k1_pay1 (F := Ideal) x0 x1 w0 w1 bb (ix2 p q) = Cert.Sage.hidden h a ws wn b i := by
  rw [stored_apply]
  unfold Cert.Sage.hidden
  simp only [hx0, hx1, hw0, hw1, hb]

/-! ## From the 20 tiles to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: at point `t` the two feature windows and the output window sit at row
    block `t`, column block 0; the weights and the bias at block 0. -/
theorem blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is tile `t` of the hidden layer of the arrays the region finds. -/
theorem flushed_eq (c : Dev nD) (t : Fin cfg1.N) :
    (dat1 (F := Ideal) V c).flushed 5 t = ((cfg1.win 5).blk t).view.read (Elt Ideal)
      (Cert.Sage.hidden (V c main_v21) (V c main_v33) (V c main_arg6) (V c main_arg7) (V c main_arg8)) := by
  show (cfg1.win 5).cut (grid1.coords t) ((dat1 (F := Ideal) V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨e00, e01, e10, e11, e20, e21, e30, e31, e40, e50, e51⟩ := blocks_at t
  funext y
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (ix2 p q)
    = Cert.Sage.hidden (V c main_v21) (V c main_v33) (V c main_arg6) (V c main_arg7) (V c main_arg8) (((cfg1.win 5).blk t).view.emb (ix2 p q))
  refine tile_entry (V c main_v21) (V c main_v33) (V c main_arg6) (V c main_arg7) (V c main_arg8)
    (iblk1 V c 0 t) (iblk1 V c 1 t) (iblk1 V c 2 t) (iblk1 V c 3 t) (iblk1 V c 4 t)
    (((cfg1.win 5).blk t).view.emb (ix2 p q)) p q ?_ ?_ ?_ ?_ ?_
  · intro k
    show V c main_v21 (((cfg1.win 0).blk t).view.emb (ix2 p k)) = V c main_v21 (Cert.Sage.rowAt (((cfg1.win 5).blk t).view.emb (ix2 p q)) k)
    refine congrArg (V c main_v21) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v33 (((cfg1.win 1).blk t).view.emb (ix2 p k)) = V c main_v33 (Cert.Sage.rowAt (((cfg1.win 5).blk t).view.emb (ix2 p q)) k)
    refine congrArg (V c main_v33) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · intro k
    show V c main_arg6 (((cfg1.win 2).blk t).view.emb (ix2 k q)) = V c main_arg6 (Cert.Sage.colAt (((cfg1.win 5).blk t).view.emb (ix2 p q)) k)
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · intro k
    show V c main_arg7 (((cfg1.win 3).blk t).view.emb (ix2 k q)) = V c main_arg7 (Cert.Sage.colAt (((cfg1.win 5).blk t).view.emb (ix2 p q)) k)
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show V c main_arg8 (((cfg1.win 4).blk t).view.emb (ix1 q)) = V c main_arg8 (Cert.Sage.biasAt (((cfg1.win 5).blk t).view.emb (ix2 p q)))
    refine congrArg (V c main_arg8) (funext fun a => Fin.ext ?_)
    match a with
    | ⟨0, _⟩ => show win1_4.index t (0 : Fin 1) * 128 + 1 * q.val = win1_5.index t (1 : Fin 2) * 128 + 1 * q.val; omega

/-- An index of the output array is in point `t`'s tile iff each coordinate is in the tile's range on its axis. -/
theorem mem_tile (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- Every entry of the output array lies in the tile of the point its row falls in: row `r` in tile `r / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < 20 := by omega
  obtain ⟨-, -, -, -, -, -, -, -, -, e50, e51⟩ := blocks_at ⟨(i 0).val / 5000, ht⟩
  refine ⟨⟨(i 0).val / 5000, ht⟩, flush1_5 _, ?_⟩
  rw [mem_tile]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- The region's output array after its 20 grid points: the layer's function of the arrays the region was entered
    with (`V`), entry by entry. -/
theorem arr (c : Dev nD) :
    (dat1 (F := Ideal) V c).arrAt 5 cfg1.N
      = Cert.Sage.hidden (V c main_v21) (V c main_v33) (V c main_arg6) (V c main_arg7) (V c main_arg8) :=
  (dat1 (F := Ideal) V c).arrAt_eq_of_cover 5 _ (fun t _ => flushed_eq V c t) covered

end Cert.KernelIdeal.Layer1

end
-- ==== Proof.Layer2.lean ====
/-
  Region 2 of the kernel's program (the last layer's dense part, tiled over the node axis in 20 blocks of 5000 rows):
  what the region leaves in its output array, as ONE function of the arrays the region finds. Grid point `t` reads
  rows `5000 t … 5000 t + 4999` of the node features and of their mean aggregation, the two whole 128 × 64 weight
  matrices and the whole bias of length 64, and writes the same rows of the 100000 × 64 output: entry `(p, q)` of
  the block is `Σ_k x[p,k]·Ws[k,q] + Σ_k a[p,k]·Wn[k,q] + b[q]`, with no clamp. The 20 blocks make up the output array.
-/
import proofs.«127973_j12043088298174_1_alg».proof.Proof.Spec
import proofs.«127973_j12043088298174_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The product's operand indices, axis by axis

For the [5000,128] × [128,64] product contracting the left operand's axis 1 with the right operand's axis 0, the
operand indices at output index `i` and contraction index `q` are `(i 0, q)` and `(q, i 1)`. -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at row `p` and output feature `q`: the sum over the 128 input features
    of the left block's row `p` times the right matrix's column `q`. -/
theorem matmul_at {φ₁ φ₂ : FTy} (x : FVec Ideal S5000x128 φ₁) (w : FVec Ideal S128x64 φ₂) (p : Fin 5000) (q : Fin 64) :
    matmul dot_S5000x128_S128x64_S5000x64_1_0_0_1_n_n none x w (constant (F := Ideal) S5000x64 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's payload at row `p` and output feature `q` of the block: the two products' sums plus the bias entry
    (the narrowing casts and the same-shape casts are the identity on extended reals). -/
theorem pay_at (x0 x1 : Vec Ideal S5000x128 .f32) (w0 w1 : Vec Ideal S128x64 .f32) (b : Vec Ideal S64 .f32)
    (p : Fin 5000) (q : Fin 64) :
    k2_pay1 (F := Ideal) x0 x1 w0 w1 b (ix2 p q)
      = (∑ k : Fin 128, x0 (ix2 p k) * w0 (ix2 k q)) + (∑ k : Fin 128, x1 (ix2 p k) * w1 (ix2 k q)) + b (ix1 q) := by
  unfold k2_pay1
  rw [addf_apply, addf_apply, matmul_at, matmul_at, shapeCast_self, shapeCast_self,
    broadcastTo_1b_ab_apply, shapeCast_a_1a_apply]
  rfl

/-! ## A block's entry is the layer's entry at the block's place in the arrays -/

/-- Suppose that, along row `p` and down column `q`, the five blocks the body reads hold what the arrays `h`, `a`,
    `ws`, `wn`, `b` hold along row `i 0` and down column `i 1`. Then the payload's entry `(p, q)` is the last
    layer's entry `i`. -/
theorem pay_eq_last (h a : FVec Ideal S100000x128 .f32) (ws wn : FVec Ideal S128x64 .f32) (b : FVec Ideal S64 .f32)
    (x0 x1 : Vec Ideal S5000x128 .f32) (w0 w1 : Vec Ideal S128x64 .f32) (b0 : Vec Ideal S64 .f32)
    (i : S100000x64.Idx) (p : Fin 5000) (q : Fin 64)
    (ex0 : ∀ k : Fin 128, x0 (ix2 p k) = h (Cert.Sage.rowAt' i k))
    (ex1 : ∀ k : Fin 128, x1 (ix2 p k) = a (Cert.Sage.rowAt' i k))
    (ew0 : ∀ k : Fin 128, w0 (ix2 k q) = ws (Cert.Sage.colAt' i k))
    (ew1 : ∀ k : Fin 128, w1 (ix2 k q) = wn (Cert.Sage.colAt' i k))
    (eb : b0 (ix1 q) = b (Cert.Sage.biasAt' i)) :
    k2_pay1 (F := Ideal) x0 x1 w0 w1 b0 (ix2 p q) = Cert.Sage.last h a ws wn b i := by
  rw [pay_at]
  unfold Cert.Sage.last
  simp only [ex0, ex1, ew0, ew1, eb]

/-! ## The 20 blocks of rows make up the array -/

theorem offsets2 : (![0, 0] : Fin 2 → Nat) = fun _ => 0 := funext fun a => by fin_cases a <;> rfl
theorem offsets1 : (![0] : Fin 1 → Nat) = fun _ => 0 := funext fun a => by fin_cases a <;> rfl

/-- The printed index maps, over the 20 grid points: point `t` places the two feature windows and the output window
    at block `t` of rows and block 0 of columns, and the two weight windows and the bias window at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What grid point `t` writes back to the output array is block `t` of the last layer of the arrays the region
    finds: an element of a block sits in its array at block index × block size + its coordinate inside the block,
    so the feature blocks' row `p` is the arrays' row `5000 t + p`, and the weights and the bias are read whole. -/
theorem written_back (V : (c : Dev nD) → (b : Ref sig .tc) → Buf (Elt Ideal) ((c : Thread nD τ).loc b)) (c : Dev nD)
    (t : Fin cfg2.N) :
    (dat2 (F := Ideal) V c).flushed 5 t = ((cfg2.win 5).blk t).view.read (Elt Ideal)
      (Cert.Sage.last (V c main_v34) (V c main_v46) (V c main_arg9) (V c main_arg10) (V c main_arg11)) := by
  show (cfg2.win 5).cut (grid2.coords t) ((dat2 (F := Ideal) V c).after 5 t) = _
  rw [after2_5]
  unfold out2_5
  rw [View.canon_unit_zero offsets2]
  simp only [View.ld_unit_zero (S := S5000x128) offsets2, View.ld_unit_zero (S := S128x64) offsets2,
    View.ld_unit_zero (S := S64) offsets1]
  obtain ⟨r0, c0, r1, c1, r2, c2, r3, c3, r4, r5, c5⟩ := block_indices t
  funext y
  obtain ⟨p, q, rfl⟩ : ∃ (p : Fin 5000) (q : Fin 64), y = ix2 p q := ⟨y 0, y 1, eq_ix2 y⟩
  show k2_pay1 (F := Ideal) (iblk2 V c 0 t) (iblk2 V c 1 t) (iblk2 V c 2 t) (iblk2 V c 3 t) (iblk2 V c 4 t) (ix2 p q)
    = Cert.Sage.last (V c main_v34) (V c main_v46) (V c main_arg9) (V c main_arg10) (V c main_arg11)
        (((cfg2.win 5).blk t).view.emb (ix2 p q))
  refine pay_eq_last (V c main_v34) (V c main_v46) (V c main_arg9) (V c main_arg10) (V c main_arg11)
    (iblk2 V c 0 t) (iblk2 V c 1 t) (iblk2 V c 2 t) (iblk2 V c 3 t) (iblk2 V c 4 t)
    (((cfg2.win 5).blk t).view.emb (ix2 p q)) p q ?_ ?_ ?_ ?_ ?_
  · intro k
    show V c main_v34 (((cfg2.win 0).blk t).view.emb (ix2 p k))
      = V c main_v34 (Cert.Sage.rowAt' (((cfg2.win 5).blk t).view.emb (ix2 p q)) k)
    refine congrArg (V c main_v34) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · intro k
    show V c main_v46 (((cfg2.win 1).blk t).view.emb (ix2 p k))
      = V c main_v46 (Cert.Sage.rowAt' (((cfg2.win 5).blk t).view.emb (ix2 p q)) k)
    refine congrArg (V c main_v46) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · intro k
    show V c main_arg9 (((cfg2.win 2).blk t).view.emb (ix2 k q))
      = V c main_arg9 (Cert.Sage.colAt' (((cfg2.win 5).blk t).view.emb (ix2 p q)) k)
    refine congrArg (V c main_arg9) (funext fun a => Fin.ext ?_)
    match a with
    | ⟨0, _⟩ => show win2_2.index t (0 : Fin 2) * 128 + 1 * k.val = k.val; omega
    | ⟨1, _⟩ => show win2_2.index t (1 : Fin 2) * 64 + 1 * q.val = win2_5.index t (1 : Fin 2) * 64 + 1 * q.val; omega
  · intro k
    show V c main_arg10 (((cfg2.win 3).blk t).view.emb (ix2 k q))
      = V c main_arg10 (Cert.Sage.colAt' (((cfg2.win 5).blk t).view.emb (ix2 p q)) k)
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 64 + 1 * q.val = win2_5.index t (1 : Fin 2) * 64 + 1 * q.val; omega
  · show V c main_arg11 (((cfg2.win 4).blk t).view.emb (ix1 q))
      = V c main_arg11 (Cert.Sage.biasAt' (((cfg2.win 5).blk t).view.emb (ix2 p q)))
    refine congrArg (V c main_arg11) (funext fun a => Fin.ext ?_)
    match a with
    | ⟨0, _⟩ => show win2_4.index t (0 : Fin 1) * 64 + 1 * q.val = win2_5.index t (1 : Fin 2) * 64 + 1 * q.val; omega

/-- An index of the output array lies in grid point `t`'s block exactly when, on each axis, its coordinate lies in
    the block's range: from block index × block size, for one block size. -/
theorem mem_block (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v47).slice (win2_5.rect t)).set ↔ _
  rw [View.set_slice_whole, Rect.mem_set_unit]
  exact Iff.rfl

/-- Every entry of the output array is written back by some grid point: row `r` lies in the block of point
    `r / 5000`, and each block spans all 64 columns. -/
theorem rows_covered (i : S100000x64.Idx) :
    ∃ t : Fin cfg2.N, (cfg2.win 5).flush t = true ∧ i ∈ ((cfg2.win 5).blk t).view.set := by
  have hrow : (i 0).val < 100000 := (i 0).isLt
  have hcol : (i 1).val < 64 := (i 1).isLt
  have hpt : (i 0).val / 5000 < 20 := by omega
  obtain ⟨-, -, -, -, -, -, -, -, -, r5, c5⟩ := block_indices ⟨(i 0).val / 5000, hpt⟩
  refine ⟨⟨(i 0).val / 5000, hpt⟩, flush2_5 _, ?_⟩
  rw [mem_block]
  intro a
  match a with
  | ⟨0, _⟩ =>
    show win2_5.index ⟨(i 0).val / 5000, hpt⟩ (0 : Fin 2) * 5000 ≤ (i 0).val
      ∧ (i 0).val < win2_5.index ⟨(i 0).val / 5000, hpt⟩ (0 : Fin 2) * 5000 + 5000
    rw [r5]
    show (i 0).val / 5000 * 5000 ≤ (i 0).val ∧ (i 0).val < (i 0).val / 5000 * 5000 + 5000
    omega
  | ⟨1, _⟩ =>
    show win2_5.index ⟨(i 0).val / 5000, hpt⟩ (1 : Fin 2) * 64 ≤ (i 1).val
      ∧ (i 1).val < win2_5.index ⟨(i 0).val / 5000, hpt⟩ (1 : Fin 2) * 64 + 64
    rw [c5]
    omega

/-- The region's output array after its 20 grid points: the layer's function of the arrays the region was entered
    with (`V`), entry by entry. -/
theorem arr (V : (c : Dev nD) → (b : Ref sig .tc) → Buf (Elt Ideal) ((c : Thread nD τ).loc b)) (c : Dev nD) :
    (dat2 (F := Ideal) V c).arrAt 5 cfg2.N
      = Cert.Sage.last (V c main_v34) (V c main_v46) (V c main_arg9) (V c main_arg10) (V c main_arg11) :=
  (dat2 (F := Ideal) V c).arrAt_eq_of_cover 5 _ (fun t _ => written_back V c t) rows_covered

end Cert.KernelIdeal.Layer2

end
-- ==== Proof.HostChain.lean ====
/-
  The host stretches of the kernel's program, read back: what each region finds in the arrays it reads. Before the
  first region the host computes the reciprocal degrees and the mean aggregation of the input features; between
  regions it aggregates the previous layer's output the same way. Every stretch is the same gather / scatter-add /
  scale chain `Cert.Sage.agg`, and no stretch and no region writes an argument array.
-/
import proofs.«127973_j12043088298174_1_alg».proof.Proof.Spec
import proofs.«127973_j12043088298174_1_alg».proof.Proof.Gen.KernelIdeal.Frame
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

/-! ## One stretch, from any contents

A stretch of host operations is a fold over its operations: an array that no operation of the stretch writes holds
afterwards what it held before, and the array the stretch computes holds the operations' composed value, read at the
arrays the stretch itself does not write. Both are stated from ARBITRARY contents `W`, so that they apply at every
boundary of the program. -/

/-- An array that no operation of the stretch writes keeps its contents: the array differs from every operation's
    result array. -/
syntax "host_keeps " ident : tactic
macro_rules
  | `(tactic| host_keeps $ops:ident) => `(tactic| (
      refine StableHlo.after_of_forall_not_mem _ _ (List.forall_iff_forall_mem.mp ?_)
      simp only [$ops:ident, List.Forall, StableHlo.nullary_writes, StableHlo.unary_writes, StableHlo.binary_writes,
        StableHlo.ternary_writes, Finset.mem_singleton]
      repeat' apply And.intro
      all_goals exact StableHlo.devRef_ne_of_ne (by decide)))

section Stretch

variable (W : Valuation τ sig (Elt Ideal))

/-! ### Stretch 0 leaves these arrays as it found them -/
theorem host0_arg0 : StableHlo.after hostOps0 W (Proc.devRef .tc main_arg0) = W (Proc.devRef .tc main_arg0) := by host_keeps hostOps0
theorem host0_arg1 : StableHlo.after hostOps0 W (Proc.devRef .tc main_arg1) = W (Proc.devRef .tc main_arg1) := by host_keeps hostOps0
theorem host0_arg2 : StableHlo.after hostOps0 W (Proc.devRef .tc main_arg2) = W (Proc.devRef .tc main_arg2) := by host_keeps hostOps0
theorem host0_arg3 : StableHlo.after hostOps0 W (Proc.devRef .tc main_arg3) = W (Proc.devRef .tc main_arg3) := by host_keeps hostOps0
theorem host0_arg4 : StableHlo.after hostOps0 W (Proc.devRef .tc main_arg4) = W (Proc.devRef .tc main_arg4) := by host_keeps hostOps0
theorem host0_arg5 : StableHlo.after hostOps0 W (Proc.devRef .tc main_arg5) = W (Proc.devRef .tc main_arg5) := by host_keeps hostOps0
theorem host0_arg6 : StableHlo.after hostOps0 W (Proc.devRef .tc main_arg6) = W (Proc.devRef .tc main_arg6) := by host_keeps hostOps0
theorem host0_arg7 : StableHlo.after hostOps0 W (Proc.devRef .tc main_arg7) = W (Proc.devRef .tc main_arg7) := by host_keeps hostOps0
theorem host0_arg8 : StableHlo.after hostOps0 W (Proc.devRef .tc main_arg8) = W (Proc.devRef .tc main_arg8) := by host_keeps hostOps0
theorem host0_arg9 : StableHlo.after hostOps0 W (Proc.devRef .tc main_arg9) = W (Proc.devRef .tc main_arg9) := by host_keeps hostOps0
theorem host0_arg10 : StableHlo.after hostOps0 W (Proc.devRef .tc main_arg10) = W (Proc.devRef .tc main_arg10) := by host_keeps hostOps0
theorem host0_arg11 : StableHlo.after hostOps0 W (Proc.devRef .tc main_arg11) = W (Proc.devRef .tc main_arg11) := by host_keeps hostOps0

/-! ### Stretch 1 leaves these arrays as it found them -/
theorem host1_arg1 : StableHlo.after hostOps1 W (Proc.devRef .tc main_arg1) = W (Proc.devRef .tc main_arg1) := by host_keeps hostOps1
theorem host1_arg2 : StableHlo.after hostOps1 W (Proc.devRef .tc main_arg2) = W (Proc.devRef .tc main_arg2) := by host_keeps hostOps1
theorem host1_arg6 : StableHlo.after hostOps1 W (Proc.devRef .tc main_arg6) = W (Proc.devRef .tc main_arg6) := by host_keeps hostOps1
theorem host1_arg7 : StableHlo.after hostOps1 W (Proc.devRef .tc main_arg7) = W (Proc.devRef .tc main_arg7) := by host_keeps hostOps1
theorem host1_arg8 : StableHlo.after hostOps1 W (Proc.devRef .tc main_arg8) = W (Proc.devRef .tc main_arg8) := by host_keeps hostOps1
theorem host1_arg9 : StableHlo.after hostOps1 W (Proc.devRef .tc main_arg9) = W (Proc.devRef .tc main_arg9) := by host_keeps hostOps1
theorem host1_arg10 : StableHlo.after hostOps1 W (Proc.devRef .tc main_arg10) = W (Proc.devRef .tc main_arg10) := by host_keeps hostOps1
theorem host1_arg11 : StableHlo.after hostOps1 W (Proc.devRef .tc main_arg11) = W (Proc.devRef .tc main_arg11) := by host_keeps hostOps1
theorem host1_v8 : StableHlo.after hostOps1 W (Proc.devRef .tc main_v8) = W (Proc.devRef .tc main_v8) := by host_keeps hostOps1
theorem host1_v21 : StableHlo.after hostOps1 W (Proc.devRef .tc main_v21) = W (Proc.devRef .tc main_v21) := by host_keeps hostOps1

/-! ### Stretch 2 leaves these arrays as it found them -/
theorem host2_arg1 : StableHlo.after hostOps2 W (Proc.devRef .tc main_arg1) = W (Proc.devRef .tc main_arg1) := by host_keeps hostOps2
theorem host2_arg2 : StableHlo.after hostOps2 W (Proc.devRef .tc main_arg2) = W (Proc.devRef .tc main_arg2) := by host_keeps hostOps2
theorem host2_arg9 : StableHlo.after hostOps2 W (Proc.devRef .tc main_arg9) = W (Proc.devRef .tc main_arg9) := by host_keeps hostOps2
theorem host2_arg10 : StableHlo.after hostOps2 W (Proc.devRef .tc main_arg10) = W (Proc.devRef .tc main_arg10) := by host_keeps hostOps2
theorem host2_arg11 : StableHlo.after hostOps2 W (Proc.devRef .tc main_arg11) = W (Proc.devRef .tc main_arg11) := by host_keeps hostOps2
theorem host2_v8 : StableHlo.after hostOps2 W (Proc.devRef .tc main_v8) = W (Proc.devRef .tc main_v8) := by host_keeps hostOps2
theorem host2_v34 : StableHlo.after hostOps2 W (Proc.devRef .tc main_v34) = W (Proc.devRef .tc main_v34) := by host_keeps hostOps2

/-! ### What each stretch computes -/

/-- Stretch 0 leaves the column of reciprocal degrees `1 / max(deg, 1)` of the edge destinations. -/
theorem host0_inv : StableHlo.after hostOps0 W (Proc.devRef .tc main_v8)
    = Cert.Sage.invDeg (F := Ideal) (W (Proc.devRef .tc main_arg2)) := by
  after_results_simp; rfl

/-- Stretch 0 leaves the mean aggregation of the input features. -/
theorem host0_agg : StableHlo.after hostOps0 W (Proc.devRef .tc main_v20)
    = Cert.Sage.agg (F := Ideal) (W (Proc.devRef .tc main_arg0)) (W (Proc.devRef .tc main_arg1)) (W (Proc.devRef .tc main_arg2)) := by
  after_results_simp; rfl

/-- Stretch 1 aggregates the first layer's output, scaling by the column of reciprocal degrees it finds. -/
theorem host1_agg : StableHlo.after hostOps1 W (Proc.devRef .tc main_v33)
    = Cert.Sage.aggWith (F := Ideal) (W (Proc.devRef .tc main_v8)) (W (Proc.devRef .tc main_v21))
        (W (Proc.devRef .tc main_arg1)) (W (Proc.devRef .tc main_arg2)) := by
  after_results_simp; rfl

/-- Stretch 2 aggregates the second layer's output, scaling by the column of reciprocal degrees it finds. -/
theorem host2_agg : StableHlo.after hostOps2 W (Proc.devRef .tc main_v46)
    = Cert.Sage.aggWith (F := Ideal) (W (Proc.devRef .tc main_v8)) (W (Proc.devRef .tc main_v34))
        (W (Proc.devRef .tc main_arg1)) (W (Proc.devRef .tc main_arg2)) := by
  after_results_simp; rfl

end Stretch

variable (m : (ℓ : Loc nD τ sig) → Buf (Elt Ideal) ℓ) (ρ : Dev nD → PrngReg) (c : Dev nD)

/-! ## The fold, boundary by boundary

The edge lists and the column of reciprocal degrees are read by every stretch and written by none after stretch 0,
and no region has them among its arrays: each boundary hands them on unchanged. -/

/-- After stretch 0 the edge sources are the launch's. -/
theorem w1_src : W1 m ρ c (Proc.devRef .tc main_arg1) = (m ((c.tc : Thread nD τ).loc main_arg1)) := host0_arg1 (W0 m ρ c)
/-- After stretch 0 the edge destinations are the launch's. -/
theorem w1_dst : W1 m ρ c (Proc.devRef .tc main_arg2) = (m ((c.tc : Thread nD τ).loc main_arg2)) := host0_arg2 (W0 m ρ c)
/-- After stretch 0 the column of reciprocal degrees is that of the launch's edge destinations. -/
theorem w1_inv : W1 m ρ c (Proc.devRef .tc main_v8) = Cert.Sage.invDeg (F := Ideal) (m ((c.tc : Thread nD τ).loc main_arg2)) := host0_inv (W0 m ρ c)

/-- Region 0 has none of the three among its arrays. -/
theorem w2_src : W2 m ρ c (Proc.devRef .tc main_arg1) = (m ((c.tc : Thread nD τ).loc main_arg1)) :=
  (W2_of_ne m ρ c main_arg1 (by decide)).trans (w1_src m ρ c)
theorem w2_dst : W2 m ρ c (Proc.devRef .tc main_arg2) = (m ((c.tc : Thread nD τ).loc main_arg2)) :=
  (W2_of_ne m ρ c main_arg2 (by decide)).trans (w1_dst m ρ c)
theorem w2_inv : W2 m ρ c (Proc.devRef .tc main_v8) = Cert.Sage.invDeg (F := Ideal) (m ((c.tc : Thread nD τ).loc main_arg2)) :=
  (W2_of_ne m ρ c main_v8 (by decide)).trans (w1_inv m ρ c)

/-- Stretch 1 writes none of the three, nor the first layer's output. -/
theorem w3_src : W3 m ρ c (Proc.devRef .tc main_arg1) = (m ((c.tc : Thread nD τ).loc main_arg1)) := (host1_arg1 (W2 m ρ c)).trans (w2_src m ρ c)
theorem w3_dst : W3 m ρ c (Proc.devRef .tc main_arg2) = (m ((c.tc : Thread nD τ).loc main_arg2)) := (host1_arg2 (W2 m ρ c)).trans (w2_dst m ρ c)
theorem w3_inv : W3 m ρ c (Proc.devRef .tc main_v8) = Cert.Sage.invDeg (F := Ideal) (m ((c.tc : Thread nD τ).loc main_arg2)) :=
  (host1_v8 (W2 m ρ c)).trans (w2_inv m ρ c)
theorem w3_h : W3 m ρ c (Proc.devRef .tc main_v21) = W2 m ρ c (Proc.devRef .tc main_v21) := host1_v21 (W2 m ρ c)

/-- Region 1 has none of the three among its arrays. -/
theorem w4_src : W4 m ρ c (Proc.devRef .tc main_arg1) = (m ((c.tc : Thread nD τ).loc main_arg1)) :=
  (W4_of_ne m ρ c main_arg1 (by decide)).trans (w3_src m ρ c)
theorem w4_dst : W4 m ρ c (Proc.devRef .tc main_arg2) = (m ((c.tc : Thread nD τ).loc main_arg2)) :=
  (W4_of_ne m ρ c main_arg2 (by decide)).trans (w3_dst m ρ c)
theorem w4_inv : W4 m ρ c (Proc.devRef .tc main_v8) = Cert.Sage.invDeg (F := Ideal) (m ((c.tc : Thread nD τ).loc main_arg2)) :=
  (W4_of_ne m ρ c main_v8 (by decide)).trans (w3_inv m ρ c)

/-- Stretch 2 does not write the second layer's output. -/
theorem w5_h : W5 m ρ c (Proc.devRef .tc main_v34) = W4 m ρ c (Proc.devRef .tc main_v34) := host2_v34 (W4 m ρ c)

/-! ## Region 0's entry: the input features, their aggregation, the first layer's parameters -/
theorem v1_x : V1 m ρ c main_arg0 = (m ((c.tc : Thread nD τ).loc main_arg0)) := host0_arg0 (W0 m ρ c)
theorem v1_agg : V1 m ρ c main_v20 = Cert.Sage.agg (F := Ideal) (m ((c.tc : Thread nD τ).loc main_arg0)) (m ((c.tc : Thread nD τ).loc main_arg1)) (m ((c.tc : Thread nD τ).loc main_arg2)) := host0_agg (W0 m ρ c)
theorem v1_ws : V1 m ρ c main_arg3 = (m ((c.tc : Thread nD τ).loc main_arg3)) := host0_arg3 (W0 m ρ c)
theorem v1_wn : V1 m ρ c main_arg4 = (m ((c.tc : Thread nD τ).loc main_arg4)) := host0_arg4 (W0 m ρ c)
theorem v1_b : V1 m ρ c main_arg5 = (m ((c.tc : Thread nD τ).loc main_arg5)) := host0_arg5 (W0 m ρ c)

/-! ## Region 1's entry: the first layer's output, its aggregation, the second layer's parameters -/
theorem v3_h : V3 m ρ c main_v21 = (dat0 (F := Ideal) (V1 m ρ) c).arrAt 5 cfg0.N :=
  (w3_h m ρ c).trans (W2_arr m ρ c 5)
theorem v3_agg : V3 m ρ c main_v33 = Cert.Sage.agg (F := Ideal) (V3 m ρ c main_v21) (m ((c.tc : Thread nD τ).loc main_arg1)) (m ((c.tc : Thread nD τ).loc main_arg2)) := by
  have h := host1_agg (W2 m ρ c)
  rw [w2_inv m ρ c, w2_src m ρ c, w2_dst m ρ c, ← w3_h m ρ c] at h
  exact h
theorem v3_ws : V3 m ρ c main_arg6 = (m ((c.tc : Thread nD τ).loc main_arg6)) :=
  (host1_arg6 (W2 m ρ c)).trans ((W2_of_ne m ρ c main_arg6 (by decide)).trans (host0_arg6 (W0 m ρ c)))
theorem v3_wn : V3 m ρ c main_arg7 = (m ((c.tc : Thread nD τ).loc main_arg7)) :=
  (host1_arg7 (W2 m ρ c)).trans ((W2_of_ne m ρ c main_arg7 (by decide)).trans (host0_arg7 (W0 m ρ c)))
theorem v3_b : V3 m ρ c main_arg8 = (m ((c.tc : Thread nD τ).loc main_arg8)) :=
  (host1_arg8 (W2 m ρ c)).trans ((W2_of_ne m ρ c main_arg8 (by decide)).trans (host0_arg8 (W0 m ρ c)))

/-! ## Region 2's entry: the second layer's output, its aggregation, the last layer's parameters -/
theorem v5_h : V5 m ρ c main_v34 = (dat1 (F := Ideal) (V3 m ρ) c).arrAt 5 cfg1.N :=
  (w5_h m ρ c).trans (W4_arr m ρ c 5)
theorem v5_agg : V5 m ρ c main_v46 = Cert.Sage.agg (F := Ideal) (V5 m ρ c main_v34) (m ((c.tc : Thread nD τ).loc main_arg1)) (m ((c.tc : Thread nD τ).loc main_arg2)) := by
  have h := host2_agg (W4 m ρ c)
  rw [w4_inv m ρ c, w4_src m ρ c, w4_dst m ρ c, ← w5_h m ρ c] at h
  exact h
theorem v5_ws : V5 m ρ c main_arg9 = (m ((c.tc : Thread nD τ).loc main_arg9)) :=
  (host2_arg9 (W4 m ρ c)).trans ((W4_of_ne m ρ c main_arg9 (by decide)).trans ((host1_arg9 (W2 m ρ c)).trans
    ((W2_of_ne m ρ c main_arg9 (by decide)).trans (host0_arg9 (W0 m ρ c)))))
theorem v5_wn : V5 m ρ c main_arg10 = (m ((c.tc : Thread nD τ).loc main_arg10)) :=
  (host2_arg10 (W4 m ρ c)).trans ((W4_of_ne m ρ c main_arg10 (by decide)).trans ((host1_arg10 (W2 m ρ c)).trans
    ((W2_of_ne m ρ c main_arg10 (by decide)).trans (host0_arg10 (W0 m ρ c)))))
theorem v5_b : V5 m ρ c main_arg11 = (m ((c.tc : Thread nD τ).loc main_arg11)) :=
  (host2_arg11 (W4 m ρ c)).trans ((W4_of_ne m ρ c main_arg11 (by decide)).trans ((host1_arg11 (W2 m ρ c)).trans
    ((W2_of_ne m ρ c main_arg11 (by decide)).trans (host0_arg11 (W0 m ρ c)))))

/-! ## The result buffer at the end: what region 2 leaves in its output array -/
theorem w6_out : W6 m ρ c (Proc.devRef .tc main_v47) = (dat2 (F := Ideal) (V5 m ρ) c).arrAt 5 cfg2.N := W6_arr m ρ c 5

end Cert.KernelIdeal.HostChain

end
-- ==== Proof.KernelValue.lean ====
/-
  The kernel's program computes the network: region by region, each region's output array is its layer's function
  of what the region finds, and what it finds is the previous region's output, that output's mean aggregation, and
  the layer's parameters as launched. Chained from the launch memory this is `Cert.Sage.net` of the arguments.
-/
import proofs.«127973_j12043088298174_1_alg».proof.Proof.Spec
import proofs.«127973_j12043088298174_1_alg».proof.Proof.Launch
import proofs.«127973_j12043088298174_1_alg».proof.Proof.Layer0
import proofs.«127973_j12043088298174_1_alg».proof.Proof.Layer1
import proofs.«127973_j12043088298174_1_alg».proof.Proof.Layer2
import proofs.«127973_j12043088298174_1_alg».proof.Proof.HostChain

set_option maxRecDepth 16384

noncomputable section

namespace Cert.KernelIdeal.NetValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first hidden layer's output, as region 1 finds it. -/
theorem h1_eq (c : Dev nD) : V3 m ρ c main_v21
    = Cert.Sage.hidden (m ((c.tc : Thread nD τ).loc main_arg0)) (Cert.Sage.agg (F := Ideal) (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) := by
  rw [HostChain.v3_h, Layer0.arr, HostChain.v1_x, HostChain.v1_agg, HostChain.v1_ws, HostChain.v1_wn, HostChain.v1_b]

/-- The second hidden layer's output, as region 2 finds it. -/
theorem h2_eq (c : Dev nD) : V5 m ρ c main_v34
    = Cert.Sage.hidden (V3 m ρ c main_v21) (Cert.Sage.agg (F := Ideal) (V3 m ρ c main_v21) (m ((c.tc : Thread nD τ).loc main_arg1)) (m ((c.tc : Thread nD τ).loc main_arg2))) (m ((c.tc : Thread nD τ).loc main_arg6)) (m ((c.tc : Thread nD τ).loc main_arg7)) (m ((c.tc : Thread nD τ).loc main_arg8)) := by
  rw [HostChain.v5_h, Layer1.arr, HostChain.v3_agg, HostChain.v3_ws, HostChain.v3_wn, HostChain.v3_b]

/-- The result buffer at the end of the run is the network of the argument arrays. -/
theorem out_eq (c : Dev nD) : W6 m ρ c (Proc.devRef .tc main_v47) = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [HostChain.w6_out, Layer2.arr, HostChain.v5_agg, HostChain.v5_ws, HostChain.v5_wn, HostChain.v5_b, h2_eq, h1_eq]
  rfl

/-- Every weakly fair execution of the kernel's program terminates with the result buffer at the network of the
    arguments and the arguments unchanged. -/
theorem run : θ_run defs (onTc (τ := τ) (main (F := Ideal))) ⟨m, fun _ => 0, ρ⟩ (fun r => ∀ c : Dev nD,
      r.2.mem ((c.tc : Thread nD τ).loc main_v47) = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (out_eq m ρ c), (h c).2⟩) (Cert.KernelIdeal.Named.run_named m ρ)

end Cert.KernelIdeal.NetValue

end
-- ==== Proof.RefValue.lean ====
/-
  The reference program's result, read back: its composed term is the network `Cert.Sage.net` of its arguments. Each
  layer's `dot_general`s are the sums over the 128 input features, the bias broadcast reads `b` at the output
  feature, the clamp is `max(·, 0)`; the aggregation chain is `Cert.Sage.agg` verbatim.
-/
import proofs.«127973_j12043088298174_1_alg».proof.Proof.Spec
import proofs.«127973_j12043088298174_1_alg».proof.Proof.Gen.ReferenceIdeal.Read

set_option maxRecDepth 16384

noncomputable section

namespace Cert.ReferenceIdeal.NetValue

open Cert.ReferenceIdeal Cert.ReferenceIdeal.Gen Idealize.ShloMosaic Idealize.ShloMosaic.TcCoe Idealize.SL.Sem
open Cert.ReferenceIdeal.Read

/-- The first aggregation chain of the program is the mean aggregation of the input features. -/
theorem agg1 (x0 : FVec Ideal S100000x128 .f32) (x1 x2 : IVec S1600000 32) :
    val_main_v20 (F := Ideal) x0 x1 x2 = Cert.Sage.agg (F := Ideal) x0 x1 x2 := rfl

/-- The first layer, entry by entry: two sums over the input features, the bias at the output feature, the clamp. -/
theorem layer1 (x0 : FVec Ideal S100000x128 .f32) (x1 x2 : IVec S1600000 32)
    (x3 x4 : FVec Ideal S128x128 .f32) (x5 : FVec Ideal S128 .f32) :
    val_main_v27 (F := Ideal) x0 x1 x2 x3 x4 x5
      = Cert.Sage.hidden x0 (Cert.Sage.agg (F := Ideal) x0 x1 x2) x3 x4 x5 := by
  rw [← agg1]
  funext i
  rw [val_main_v27_apply, val_main_v26_apply, val_main_v23_apply, val_main_v21_apply, val_main_v22_apply,
    val_main_v25_apply, val_main_v24_apply, val_main_call0_v0_apply, val_main_call0_cst_apply]
  rfl

/-- The second aggregation chain is the mean aggregation of the first layer's output. -/
theorem agg2 (x0 : FVec Ideal S100000x128 .f32) (x1 x2 : IVec S1600000 32)
    (x3 x4 : FVec Ideal S128x128 .f32) (x5 : FVec Ideal S128 .f32) :
    val_main_v39 (F := Ideal) x0 x1 x2 x3 x4 x5
      = Cert.Sage.agg (F := Ideal) (val_main_v27 (F := Ideal) x0 x1 x2 x3 x4 x5) x1 x2 := by
  unfold val_main_v39 val_main_v37 val_main_v34
  generalize val_main_v27 (F := Ideal) x0 x1 x2 x3 x4 x5 = h
  rfl

/-- The second layer, entry by entry, of the first layer's output and its mean aggregation. -/
theorem layer2 (x0 : FVec Ideal S100000x128 .f32) (x1 x2 : IVec S1600000 32)
    (x3 x4 : FVec Ideal S128x128 .f32) (x5 : FVec Ideal S128 .f32)
    (x6 x7 : FVec Ideal S128x128 .f32) (x8 : FVec Ideal S128 .f32) :
    val_main_v46 (F := Ideal) x0 x1 x2 x3 x4 x5 x6 x7 x8
      = Cert.Sage.hidden (val_main_v27 (F := Ideal) x0 x1 x2 x3 x4 x5)
          (Cert.Sage.agg (F := Ideal) (val_main_v27 (F := Ideal) x0 x1 x2 x3 x4 x5) x1 x2) x6 x7 x8 := by
  rw [← agg2]
  funext i
  rw [val_main_v46_apply, val_main_v45_apply, val_main_v42_apply, val_main_v40_apply, val_main_v41_apply,
    val_main_v44_apply, val_main_v43_apply, val_main_call1_v0_apply, val_main_call1_cst_apply]
  generalize val_main_v27 (F := Ideal) x0 x1 x2 x3 x4 x5 = h
  generalize val_main_v39 (F := Ideal) x0 x1 x2 x3 x4 x5 = a
  rfl

/-- The third aggregation chain is the mean aggregation of the second layer's output. -/
theorem agg3 (x0 : FVec Ideal S100000x128 .f32) (x1 x2 : IVec S1600000 32)
    (x3 x4 : FVec Ideal S128x128 .f32) (x5 : FVec Ideal S128 .f32)
    (x6 x7 : FVec Ideal S128x128 .f32) (x8 : FVec Ideal S128 .f32) :
    val_main_v58 (F := Ideal) x0 x1 x2 x3 x4 x5 x6 x7 x8
      = Cert.Sage.agg (F := Ideal) (val_main_v46 (F := Ideal) x0 x1 x2 x3 x4 x5 x6 x7 x8) x1 x2 := by
  unfold val_main_v58 val_main_v56 val_main_v53
  generalize val_main_v46 (F := Ideal) x0 x1 x2 x3 x4 x5 x6 x7 x8 = h
  rfl

/-- The last layer, entry by entry, of the second layer's output and its mean aggregation: no clamp. -/
theorem layer3 (x0 : FVec Ideal S100000x128 .f32) (x1 x2 : IVec S1600000 32)
    (x3 x4 : FVec Ideal S128x128 .f32) (x5 : FVec Ideal S128 .f32)
    (x6 x7 : FVec Ideal S128x128 .f32) (x8 : FVec Ideal S128 .f32)
    (x9 x10 : FVec Ideal S128x64 .f32) (x11 : FVec Ideal S64 .f32) :
    val_main_v64 (F := Ideal) x0 x1 x2 x3 x4 x5 x6 x7 x8 x9 x10 x11
      = Cert.Sage.last (val_main_v46 (F := Ideal) x0 x1 x2 x3 x4 x5 x6 x7 x8)
          (Cert.Sage.agg (F := Ideal) (val_main_v46 (F := Ideal) x0 x1 x2 x3 x4 x5 x6 x7 x8) x1 x2) x9 x10 x11 := by
  rw [← agg3]
  funext i
  rw [val_main_v64_apply, val_main_v61_apply, val_main_v59_apply, val_main_v60_apply,
    val_main_v63_apply, val_main_v62_apply]
  generalize val_main_v46 (F := Ideal) x0 x1 x2 x3 x4 x5 x6 x7 x8 = h
  generalize val_main_v58 (F := Ideal) x0 x1 x2 x3 x4 x5 x6 x7 x8 = a
  rfl

/-- The program's composed term, over arbitrary argument arrays, is the network. -/
theorem net_eq (x0 : FVec Ideal S100000x128 .f32) (x1 x2 : IVec S1600000 32)
    (x3 x4 : FVec Ideal S128x128 .f32) (x5 : FVec Ideal S128 .f32)
    (x6 x7 : FVec Ideal S128x128 .f32) (x8 : FVec Ideal S128 .f32)
    (x9 x10 : FVec Ideal S128x64 .f32) (x11 : FVec Ideal S64 .f32) :
    val_main_v64 (F := Ideal) x0 x1 x2 x3 x4 x5 x6 x7 x8 x9 x10 x11
      = Cert.Sage.net x0 x1 x2 x3 x4 x5 x6 x7 x8 x9 x10 x11 := by
  rw [layer3, layer2, layer1]
  rfl

/-- The reference's result term is the network of the argument arrays. -/
theorem res_eq (m : (ℓ : Loc nD τ sig) → Buf (Elt Ideal) ℓ) (c : Dev nD) :
    Cert.ReferenceIdeal.Value.res_main_v64 (F := Ideal) m c
      = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (val_main_v64_eq (F := Ideal) m c).trans (net_eq _ _ _ _ _ _ _ _ _ _ _ _)

end Cert.ReferenceIdeal.NetValue

end
-- ==== Proof.lean ====
/-
  The certificate of a three-layer GraphSAGE forward pass. The kernel's program runs each layer's dense part
  `h · W_self + mean_agg(h) · W_neigh + b` (with `max(·, 0)` after the two hidden layers) as a tiled region over the
  node axis, and leaves the gather / scatter-add aggregation to the host; the reference runs everything on the host.
  Over the extended reals both are the same function of the arguments (`Cert.Sage.net`): a zero-initialised matrix
  product is the `dot_general`'s sum over the 128 input features, entry by entry, and the host chains are the same
  operations applied to equal values. No algebraic law beyond that is used, so the precondition is never opened.
  The three frames: the two kernel programs' by their generated frame certificates, the reference's by its run.
-/
import proofs.«127973_j12043088298174_1_alg».proof.Defs
import proofs.«127973_j12043088298174_1_alg».proof.Proof.Gen.Kernel
import proofs.«127973_j12043088298174_1_alg».proof.Proof.Gen.Kernel.Skeleton
import proofs.«127973_j12043088298174_1_alg».proof.Proof.Gen.Kernel.Launch
import proofs.«127973_j12043088298174_1_alg».proof.Proof.Gen.Kernel.Points
import proofs.«127973_j12043088298174_1_alg».proof.Proof.Gen.Kernel.Frame
import proofs.«127973_j12043088298174_1_alg».proof.Proof.Gen.KernelIdeal
import proofs.«127973_j12043088298174_1_alg».proof.Proof.Gen.KernelIdeal.Skeleton
import proofs.«127973_j12043088298174_1_alg».proof.Proof.Gen.KernelIdeal.Launch
import proofs.«127973_j12043088298174_1_alg».proof.Proof.Gen.KernelIdeal.Points
import proofs.«127973_j12043088298174_1_alg».proof.Proof.Gen.KernelIdeal.Frame
import proofs.«127973_j12043088298174_1_alg».proof.Proof.Gen.ReferenceIdeal
import proofs.«127973_j12043088298174_1_alg».proof.Proof.Gen.ReferenceIdeal.Run
import proofs.«127973_j12043088298174_1_alg».proof.Proof.Gen.ReferenceIdeal.Read
import proofs.«127973_j12043088298174_1_alg».proof.Proof.Gen.Pre_finite_inputs
import proofs.«127973_j12043088298174_1_alg».proof.Proof.KernelValue
import proofs.«127973_j12043088298174_1_alg».proof.Proof.RefValue
import Idealize.ShloMosaic.Adequacy
import Idealize.ShloMosaic.Init

noncomputable section

namespace Cert.Proof

open Idealize.ShloMosaic Idealize.SL.Sem

/-- The word-level kernel program runs and keeps its arguments: its generated frame certificate. -/
theorem frame_k : Cert.frame_Kernel := fun m ρ _ => Cert.Kernel.Gen.frame m ρ
/-- The same for the idealized kernel program. -/
theorem frame_ki : Cert.frame_KernelIdeal := fun m ρ _ => Cert.KernelIdeal.Gen.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network of the (agreeing) arguments in their result buffers. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.NetValue.res_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
